-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S16000000x1 : S_.BroadcastsInDim S16000000x1 (![] : Fin 0 → Fin S16000000x1.rank)
  reducesTo_S16000000x1_S_d0_1 : S16000000x1.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256 .f32) (main_arg9 : FVec F S256x1 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S500000x3 .f32) (main_arg1 : IVec S2x16000000 32) (main_arg2 : FVec F S16000000x1 .f32) (main_arg3 : FVec F S32x256 .f32) (main_arg4 : FVec F S256 .f32) (main_arg5 : FVec F S256x256 .f32) (main_arg6 : FVec F S256 .f32) (main_arg7 : FVec F S256x256 .f32) (main_arg8 : FVec F S256 .f32) (main_arg9 : FVec F S256x1 .f32) (main_arg10 : FVec F S1 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S16000000x1 .f32 := Host.absf main_arg2
  let main_cst_0 : FVec F S_ .f32 := constant S_ .f32 0x7F800000#32
  let main_v5 : FVec F S16000000x1 .f32 := broadcastInDim S16000000x1 ![] bcast_S_S16000000x1 main_cst_0
  let main_v6 : IVec S16000000x1 1 := cmpf .olt main_v4 main_v5
  let main_c_1 : IVec S_ 1 := constantI S_ 1 1#1
  let main_v7 : IVec S_ 1 := (fun x v => Host.reduce IntOp.andi x v reducesTo_S16000000x1_S_d0_1 h_S_) main_v6 main_c_1
  let main_v8 : IVec S_ 1 := andi main_v3 main_v7
  let main_v9 : FVec F S32x256 .f32 := Host.absf main_arg3
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500000x32 : Shape := ⟨2, ![500000, 32]⟩
abbrev S1x256 : Shape := ⟨2, ![1, 256]⟩
abbrev S1x1 : Shape := ⟨2, ![1, 1]⟩
abbrev S500000x1 : Shape := ⟨2, ![500000, 1]⟩
abbrev S2000x32 : Shape := ⟨2, ![2000, 32]⟩
abbrev S2000x1 : Shape := ⟨2, ![2000, 1]⟩
abbrev S2000x256 : Shape := ⟨2, ![2000, 256]⟩
abbrev S500000 : Shape := ⟨1, ![500000]⟩

abbrev nBuf : Space → Nat
  | .hbm => 18
  | .vmem => 12
  | .smem => 0
  | _ => 0

abbrev bufTy : (tb : Table) → Fin (tcTables nBuf tb) → BufTy
  | .hbm, ⟨0, _⟩ => ⟨S500000x3, .f32⟩
  | .hbm, ⟨1, _⟩ => ⟨S2x16000000, .i32⟩
  | .hbm, ⟨2, _⟩ => ⟨S16000000x1, .f32⟩
  | .hbm, ⟨3, _⟩ => ⟨S32x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S500000x32, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S500000x1, .f32⟩
  | .hbm, ⟨17, _⟩ => ⟨S500000, .f32⟩
  | .local _ .vmem, ⟨0, _⟩ => ⟨S2000x32, .f32⟩
  | .local _ .vmem, ⟨1, _⟩ => ⟨S2000x32, .f32⟩
  | .local _ .vmem, ⟨2, _⟩ => ⟨S32x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16000000x1_S500000x32 : S16000000x1.ShapeCasts S500000x32
  shapeCasts_S256_S1x256 : S256.ShapeCasts S1x256
  shapeCasts_S1_S1x1 : S1.ShapeCasts S1x1
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S500000x1_S500000 : S500000x1.ShapeCasts S500000
  dot_S2000x32_S32x256_S2000x256_1_0_0_1_n_n_wf : DotDims.WF S2000x32 S32x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S500000x32.size a
  hwx0_0 : ∀ i : grid0.Coords, EltTy.bits .f32 = 32 ∨ (Rect.block (s := S500000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S500000x1.size a
  hwx0_9 : ∀ i : grid0.Coords, EltTy.bits .f32 = 32 ∨ (Rect.block (s := S500000x1) S2000x1.size (cc0_transform_9 i) (hinb0_9 i)).WholeWords (EltTy.packing .f32)

variable [Facts₀]

def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x3 : Shape := ⟨2, ![500000, 3]⟩
abbrev S2x16000000 : Shape := ⟨2, ![2, 16000000]⟩
abbrev S16000000x1 : Shape := ⟨2, ![16000000, 1]⟩
abbrev S32x256 : Shape := ⟨2, ![32, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S500000x32 : Shape := ⟨2, ![500000, 32]⟩
abbrev S500000x256 : Shape := ⟨2, ![500000, 256]⟩
abbrev S1x256 : Shape := ⟨2, ![1, 256]⟩
abbrev S500000x1 : Shape := ⟨2, ![500000, 1]⟩
abbrev S1x1 : Shape := ⟨2, ![1, 1]⟩
abbrev S_ : Shape := ⟨0, ![]⟩
abbrev S500000 : Shape := ⟨1, ![500000]⟩

abbrev nBuf : Space → Nat
  | .hbm => 48
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S2x16000000, .i32⟩
  | .hbm, ⟨2, _⟩ => ⟨S16000000x1, .f32⟩
  | .hbm, ⟨3, _⟩ => ⟨S32x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S500000x32, .f32⟩
  | .hbm, ⟨12, _⟩ => ⟨S500000x256, .f32⟩
  | .hbm, ⟨13, _⟩ => ⟨S1x256, .f32⟩
  | .hbm, ⟨14, _⟩ => ⟨S500000x256, .f32⟩
  | .hbm, ⟨15, _⟩ => ⟨S500000x256, .f32⟩
  | .hbm, ⟨16, _⟩ => ⟨S500000x256, .f32⟩
  | .hbm, ⟨17, _⟩ => ⟨S500000x256, .f32⟩
  | .hbm, ⟨18, _⟩ => ⟨S1x256, .f32⟩
  | .hbm, ⟨19, _⟩ => ⟨S500000x256, .f32⟩
  | .hbm, ⟨20, _⟩ => ⟨S500000x256, .f32⟩
  | .hbm, ⟨21, _⟩ => ⟨S500000x256, .f32⟩
  | .hbm, ⟨22, _⟩ => ⟨S500000x256, .f32⟩
  | .hbm, ⟨23, _⟩ => ⟨S1x256, .f32⟩
  | .hbm, ⟨24, _⟩ => ⟨S500000x256, .f32⟩
  | .hbm, ⟨25, _⟩ => ⟨S500000x256, .f32⟩
  | .hbm, ⟨26, _⟩ => ⟨S500000x256, .f32⟩
  | .hbm, ⟨27, _⟩ => ⟨S500000x1, .f32⟩
  | .hbm, ⟨28, _⟩ => ⟨S1x1, .f32⟩
  | .hbm, ⟨29, _⟩ => ⟨S500000x1, .f32⟩
  | .hbm, ⟨30, _⟩ => ⟨S500000x1, .f32⟩
  | .hbm, ⟨31, _⟩ => ⟨S500000x1, .f32⟩
  | .hbm, ⟨32, _⟩ => ⟨S_, .f32⟩
  | .hbm, ⟨33, _⟩ => ⟨S500000x1, .f32⟩
  | .hbm, ⟨34, _⟩ => ⟨S500000x1, .f32⟩
  | .hbm, ⟨35, _⟩ => ⟨S500000x1, .f32⟩
  | .hbm, ⟨36, _⟩ => ⟨S500000x1, .f32⟩
  | .hbm, ⟨37, _⟩ => ⟨S500000x1, .i1⟩
  | .hbm, ⟨38, _⟩ => ⟨S500000x1, .f32⟩
  | .hbm, ⟨39, _⟩ => ⟨S500000x1, .f32⟩
  | .hbm, ⟨40, _⟩ => ⟨S500000x1, .f32⟩
  | .hbm, ⟨41, _⟩ => ⟨S500000x1, .f32⟩
  | .hbm, ⟨42, _⟩ => ⟨S500000x1, .f32⟩
  | .hbm, ⟨43, _⟩ => ⟨S500000x1, .f32⟩
  | .hbm, ⟨44, _⟩ => ⟨S500000x1, .f32⟩
  | .hbm, ⟨45, _⟩ => ⟨S500000x1, .f32⟩
  | .hbm, ⟨46, _⟩ => ⟨S500000x1, .f32⟩
  | .hbm, ⟨47, _⟩ => ⟨S500000, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v20 : Ref sig .tc := ⟨.hbm, 46, rfl⟩
abbrev main_v21 : Ref sig .tc := ⟨.hbm, 47, rfl⟩

abbrev nD : Nat := 1
abbrev τ : Topo := Topo.v7x

variable {F : FTy → Type} [FloatOps F]

class Facts₀ : Prop where
  shapeCasts_S16000000x1_S500000x32 : S16000000x1.ShapeCasts S500000x32
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  shapeCasts_S500000x1_S500000 : S500000x1.ShapeCasts S500000
  dot_S500000x32_S32x256_S500000x256_1_0_0_1_n_n_wf : DotDims.WF S500000x32 S32x256 S500000x256 [1] [0] [0] [1] [] []
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def dot_S500000x32_S32x256_S500000x256_1_0_0_1_n_n : DotDims S500000x32 S32x256 S500000x256 where
  lhsContracting := [1]
  rhsContracting := [0]
  lhsNonContracting := [0]
  rhsNonContracting := [1]
  lhsBatch := []
  rhsBatch := []
  wf := dot_S500000x32_S32x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Mlp.lean ====
/-
  The mathematics both programs compute, one row at a time.

  A node's 32 edge attributes go through three dense layers with tanh, then a dense layer to a single logit, then the
  log-sigmoid.  A dense layer's pre-activation at unit j of a row h is (∑ k, h k · W (k, j)) + b j.  The log-sigmoid is
  jax's: -softplus(-x), with softplus z = max(z, 0) + log1p(exp(-|z - 0|)) (the other branch of its NaN guard can never be
  taken on the extended reals, where nothing is unordered: a value is never different from itself).
  Both programs spell the last steps a little differently (the kernel writes a negation as 0 - x); `kernel_tail` and
  `host_tail` bring each spelling to `logSigmoid`.
-/
import Idealize.ShloMosaic.Lib.ValueIdx
import Idealize.ShloMosaic.PureOps.Ideal.Laws

noncomputable section

open scoped BigOperators

namespace Mlp

open Idealize.ShloMosaic Idealize.ShloMosaic.ValueIdx

/-- A dense layer's pre-activation at unit `j`, on the row `h`: the row times column `j` of the weights, plus the bias. -/
def pre {K N : Nat} (W : (⟨2, ![K, N]⟩ : Shape).Idx → EReal) (b : Fin N → EReal) (h : Fin K → EReal) (j : Fin N) : EReal :=
  (∑ k : Fin K, h k * W (ix2 k j)) + b j

/-- A hidden layer: tanh of the pre-activation, unit by unit. -/
def hidden {K N : Nat} (W : (⟨2, ![K, N]⟩ : Shape).Idx → EReal) (b : Fin N → EReal) (h : Fin K → EReal) : Fin N → EReal :=
  fun j => Ideal.tanh (pre W b h j)

/-- jax's log-sigmoid on the extended reals: -(max(-x, 0) + log1p(exp(-|-x - 0|))), the absolute value as max(a, -a). -/
def logSigmoid (x : EReal) : EReal :=
  -(max (-x) 0 + Ideal.log1p (Ideal.exp (-(max (-x - 0) (-(-x - 0))))))

/-- One row through the whole network: three hidden layers, the output layer's one logit, the log-sigmoid. -/
def out (W1 : (⟨2, ![32, 256]⟩ : Shape).Idx → EReal) (b1 : Fin 256 → EReal)
    (W2 : (⟨2, ![256, 256]⟩ : Shape).Idx → EReal) (b2 : Fin 256 → EReal)
    (W3 : (⟨2, ![256, 256]⟩ : Shape).Idx → EReal) (b3 : Fin 256 → EReal)
    (W4 : (⟨2, ![256, 1]⟩ : Shape).Idx → EReal) (b4 : Fin 1 → EReal) (x : Fin 32 → EReal) : EReal :=
  logSigmoid (pre W4 b4 (hidden W3 b3 (hidden W2 b2 (hidden W1 b1 x))) 0)

/-- Node `n`'s result as a function of the argument arrays: the network on its 32 attributes, which sit at entries
    32 n … 32 n + 31 of the flat edge-attribute column; each bias as the vector it is. -/
def node (e : (⟨2, ![16000000, 1]⟩ : Shape).Idx → EReal)
    (W1 : (⟨2, ![32, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 256]⟩ : Shape).Idx → EReal) (b3 : (⟨1, ![256]⟩ : Shape).Idx → EReal)
    (W4 : (⟨2, ![256, 1]⟩ : Shape).Idx → EReal) (b4 : (⟨1, ![1]⟩ : Shape).Idx → EReal) (n : Fin 500000) : EReal :=
  out W1 (fun j => b1 (ix1 j)) W2 (fun j => b2 (ix1 j)) W3 (fun j => b3 (ix1 j)) W4 (fun j => b4 (ix1 j))
    (fun k : Fin 32 => e (ix2 (⟨32 * n.val + k.val, by have := n.isLt; have := k.isLt; omega⟩ : Fin 16000000) (0 : Fin 1)))

/-- Nothing differs from itself: the NaN test is never taken, whichever of the two "not equal" predicates spells it. -/
theorem cmp_one_self (a : EReal) : Ideal.cmp .one a a = 0#1 := by simp [Ideal.cmp]
theorem cmp_une_self (a : EReal) : Ideal.cmp .une a a = 0#1 := by simp [Ideal.cmp]

/-- The kernel's last steps on a logit `x`, negations written as differences from zero. -/
theorem kernel_tail (x : EReal) :
    0 - Scalar.select (Ideal.cmp .one (0 - x - 0) (0 - x - 0)) (0 - x + 0)
          (max (0 - x) 0 + Ideal.log1p (Ideal.exp (0 - max (0 - x - 0) (-(0 - x - 0))))) = logSigmoid x := by
  rw [cmp_one_self, select_zero]
  simp only [zero_sub]
  rfl

/-- The host's last steps on a logit `x`. -/
theorem host_tail (x : EReal) :
    -(Scalar.select (Ideal.cmp .une (-x - 0) (-x - 0)) (-x + 0)
          (max (-x) 0 + Ideal.log1p (Ideal.exp (-(max (-x - 0) (-(-x - 0))))))) = logSigmoid x := by
  rw [cmp_une_self, select_zero]
  rfl

end Mlp

end
-- ==== Proof.KernelPayload.lean ====
/-
  The kernel body's arithmetic, read at one row of a block.

  The body's value is the generated payload: four matrix products (operands narrowed to bf16, which on the extended
  reals is the identity) each with a bias row broadcast down the block, tanh after the first three, and the
  log-sigmoid written out on the fourth's one column.  Stage by stage, at row p of the block it is the network
  `Mlp.out` applied to row p of the block of inputs, with the weight blocks as they are and each bias block's one row.
-/
import proofs.«149214_j89137751261683_1_alg».proof.Proof.Gen.KernelIdeal.Skeleton
import proofs.«149214_j89137751261683_1_alg».proof.Proof.LibPlainDot
import proofs.«149214_j89137751261683_1_alg».proof.Proof.Mlp
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The payload as stages -/

/-- The first hidden layer on a block: tanh (x · W + b), the bias row broadcast down the rows. -/
def stage1 (x : Vec Ideal S2000x32 .f32) (W : Vec Ideal S32x256 .f32) (b : Vec Ideal S1x256 .f32) : FVec Ideal S2000x256 .f32 :=
  tanh (addf (matmul dot_S2000x32_S32x256_S2000x256_1_0_0_1_n_n none
      (truncf .bf16 (shapeCast S2000x32 x shapeCasts_S2000x32_S2000x32) bitsLt_bf16_f32) (truncf .bf16 W bitsLt_bf16_f32)
      (constant S2000x256 .f32 0x00000000#32))
    (broadcastTo S2000x256 (shapeCast S1x256 b shapeCasts_S1x256_S1x256) broadcasts_S1x256_S2000x256))

/-- A further hidden layer on a block. -/
def stageH (h : FVec Ideal S2000x256 .f32) (W : Vec Ideal S256x256 .f32) (b : Vec Ideal S1x256 .f32) : FVec Ideal S2000x256 .f32 :=
  tanh (addf (matmul dot_S2000x256_S256x256_S2000x256_1_0_0_1_n_n none
      (truncf .bf16 h bitsLt_bf16_f32) (truncf .bf16 W bitsLt_bf16_f32) (constant S2000x256 .f32 0x00000000#32))
    (broadcastTo S2000x256 (shapeCast S1x256 b shapeCasts_S1x256_S1x256) broadcasts_S1x256_S2000x256))

/-- The output layer on a block: one logit per row. -/
def stageOut (h : FVec Ideal S2000x256 .f32) (W : Vec Ideal S256x1 .f32) (b : Vec Ideal S1x1 .f32) : FVec Ideal S2000x1 .f32 :=
  addf (matmul dot_S2000x256_S256x1_S2000x1_1_0_0_1_n_n none
      (truncf .bf16 h bitsLt_bf16_f32) (truncf .bf16 W bitsLt_bf16_f32) (constant S2000x1 .f32 0x00000000#32))
    (broadcastTo S2000x1 (shapeCast S1x1 b shapeCasts_S1x1_S1x1) broadcasts_S1x1_S2000x1)

/-- The generated logit payload is those stages composed. -/
theorem pay2_eq (x0 : Vec Ideal S2000x32 .f32) (x1 : Vec Ideal S32x256 .f32) (x2 : Vec Ideal S1x256 .f32) (x3 : Vec Ideal S256x256 .f32)
    (x4 : Vec Ideal S1x256 .f32) (x5 : Vec Ideal S256x256 .f32) (x6 : Vec Ideal S1x256 .f32) (x7 : Vec Ideal S256x1 .f32) (x8 : Vec Ideal S1x1 .f32) :
    k0_pay2 x0 x1 x2 x3 x4 x5 x6 x7 x8 = stageOut (stageH (stageH (stage1 x0 x1 x2) x3 x4) x5 x6) x7 x8 := rfl

/-! ## The dimension numbers are the plain product's -/

theorem plain1 : PlainDot.IsPlain dot_S2000x32_S32x256_S2000x256_1_0_0_1_n_n := ⟨rfl, rfl, rfl, rfl, rfl, rfl⟩
theorem plainH : PlainDot.IsPlain dot_S2000x256_S256x256_S2000x256_1_0_0_1_n_n := ⟨rfl, rfl, rfl, rfl, rfl, rfl⟩
theorem plainOut : PlainDot.IsPlain dot_S2000x256_S256x1_S2000x1_1_0_0_1_n_n := ⟨rfl, rfl, rfl, rfl, rfl, rfl⟩

/-! ## A bias row broadcast down a block, read at an entry -/

/-- A [1, N] row broadcast to [M, N], read at (p, j), is the row's entry j. -/
theorem biasRow_apply {M N : Nat} (b : (⟨2, ![1, N]⟩ : Shape).Idx → EReal) (h : (⟨2, ![1, N]⟩ : Shape).Broadcasts ⟨2, ![M, N]⟩)
    (p : Fin M) (j : Fin N) : broadcastTo ⟨2, ![M, N]⟩ b h (ix2 p j) = b (ix2 0 j) := by
  refine broadcastTo_apply b h (ix2 p j) (ix2 0 j) fun a => ?_
  match a with
  | ⟨0, _⟩ => rfl
  | ⟨1, _⟩ =>
    show j.val = if N = 1 then 0 else j.val
    split_ifs with hN
    · have := j.isLt; omega
    · rfl

/-! ## Each stage at an entry -/

theorem stage1_apply (x : Vec Ideal S2000x32 .f32) (W : Vec Ideal S32x256 .f32) (b : Vec Ideal S1x256 .f32) (p : Fin 2000) (j : Fin 256) :
    stage1 x W b (ix2 p j) = Mlp.hidden W (fun j => b (ix2 0 j)) (fun k => x (ix2 p k)) j := by
  show Ideal.tanh (matmul (F := Ideal) dot_S2000x32_S32x256_S2000x256_1_0_0_1_n_n none _ _ (constant (F := Ideal) S2000x256 .f32 0x00000000#32) (ix2 p j)
    + broadcastTo S2000x256 (shapeCast S1x256 b shapeCasts_S1x256_S1x256) broadcasts_S1x256_S2000x256 (ix2 p j)) = _
  rw [PlainDot.matmul_zero_apply plain1, shapeCast_self, shapeCast_self, biasRow_apply]
  rfl

theorem stageH_apply (h : FVec Ideal S2000x256 .f32) (W : Vec Ideal S256x256 .f32) (b : Vec Ideal S1x256 .f32) (p : Fin 2000) (j : Fin 256) :
    stageH h W b (ix2 p j) = Mlp.hidden W (fun j => b (ix2 0 j)) (fun k => h (ix2 p k)) j := by
  show Ideal.tanh (matmul (F := Ideal) dot_S2000x256_S256x256_S2000x256_1_0_0_1_n_n none _ _ (constant (F := Ideal) S2000x256 .f32 0x00000000#32) (ix2 p j)
    + broadcastTo S2000x256 (shapeCast S1x256 b shapeCasts_S1x256_S1x256) broadcasts_S1x256_S2000x256 (ix2 p j)) = _
  rw [PlainDot.matmul_zero_apply plainH, shapeCast_self, biasRow_apply]
  rfl

theorem stageOut_apply (h : FVec Ideal S2000x256 .f32) (W : Vec Ideal S256x1 .f32) (b : Vec Ideal S1x1 .f32) (p : Fin 2000) (j : Fin 1) :
    stageOut h W b (ix2 p j) = Mlp.pre W (fun j => b (ix2 0 j)) (fun k => h (ix2 p k)) j := by
  show matmul (F := Ideal) dot_S2000x256_S256x1_S2000x1_1_0_0_1_n_n none _ _ (constant (F := Ideal) S2000x1 .f32 0x00000000#32) (ix2 p j)
    + broadcastTo S2000x1 (shapeCast S1x1 b shapeCasts_S1x1_S1x1) broadcasts_S1x1_S2000x1 (ix2 p j) = _
  rw [PlainDot.matmul_zero_apply plainOut, shapeCast_self, biasRow_apply]
  rfl

/-- The log-sigmoid the body writes out after the logits, at an entry. -/
theorem pay1_apply (z : FVec Ideal S2000x1 .f32) (i : S2000x1.Idx) : k0_pay1 z i = Mlp.logSigmoid (z i) := by
  unfold k0_pay1
  show Ideal.ofBits .f32 0x00000000#32
      - Scalar.select (Ideal.cmp .one (Ideal.ofBits .f32 0x00000000#32 - z i - Ideal.ofBits .f32 0x00000000#32)
            (Ideal.ofBits .f32 0x00000000#32 - z i - Ideal.ofBits .f32 0x00000000#32))
          (Ideal.ofBits .f32 0x00000000#32 - z i + Ideal.ofBits .f32 0x00000000#32)
          (max (Ideal.ofBits .f32 0x00000000#32 - z i) (Ideal.ofBits .f32 0x00000000#32)
            + Ideal.log1p (Ideal.exp (Ideal.ofBits .f32 0x00000000#32
                - max (Ideal.ofBits .f32 0x00000000#32 - z i - Ideal.ofBits .f32 0x00000000#32)
                    (-(Ideal.ofBits .f32 0x00000000#32 - z i - Ideal.ofBits .f32 0x00000000#32))))) = _
  rw [Ideal.ofBits_zero_f32]
  exact Mlp.kernel_tail (z i)

/-! ## The whole payload at a row -/

/-- Row p of the block the body stores: the network applied to row p of the input block. -/
theorem pay_apply (x0 : Vec Ideal S2000x32 .f32) (x1 : Vec Ideal S32x256 .f32) (x2 : Vec Ideal S1x256 .f32) (x3 : Vec Ideal S256x256 .f32)
    (x4 : Vec Ideal S1x256 .f32) (x5 : Vec Ideal S256x256 .f32) (x6 : Vec Ideal S1x256 .f32) (x7 : Vec Ideal S256x1 .f32) (x8 : Vec Ideal S1x1 .f32)
    (p : Fin 2000) (q : Fin 1) :
    k0_pay1 (k0_pay2 x0 x1 x2 x3 x4 x5 x6 x7 x8) (ix2 p q)
      = Mlp.out x1 (fun j => x2 (ix2 0 j)) x3 (fun j => x4 (ix2 0 j)) x5 (fun j => x6 (ix2 0 j)) x7 (fun j => x8 (ix2 0 j))
          (fun k => x0 (ix2 p k)) := by
  obtain rfl : q = 0 := Subsingleton.elim _ _
  rw [pay1_apply, pay2_eq, stageOut_apply]
  simp only [stageH_apply, stage1_apply]
  rfl

end Cert.KernelIdeal.Payload

end
-- ==== Proof.KernelValue.lean ====
/-
  The idealized kernel's run, read: what its result holds.

  Before the pallas_call the host views the flat edge attributes as 500000 rows of 32 and each bias vector as a one-row
  matrix.  Grid point t stages rows 2000 t … 2000 t + 1999 of the attribute rows, the four weight matrices and bias rows
  whole, and writes back rows 2000 t … 2000 t + 1999 of a one-column output; by the payload's value at a row, entry n of
  that column is the network on node n's attributes.  The 250 blocks tile the column, so it ends holding that function
  everywhere; the host's final reshape reads the column as a vector.
-/
import proofs.«149214_j89137751261683_1_alg».proof.Proof.Gen.KernelIdeal.Frame
import proofs.«149214_j89137751261683_1_alg».proof.Proof.KernelPayload
import proofs.«149214_j89137751261683_1_alg».proof.Proof.Mlp
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-! ## The arrays the region finds: the host's reshapes of the arguments -/

/-- The attribute rows the region finds: the flat column reshaped. -/
theorem V_rows (c : Dev nD) :
    (V m c main_v0 : S500000x32.Idx → EReal) = shapeCast S500000x32 (m ((c : Thread nD τ).loc main_arg2)) shapeCasts_S16000000x1_S500000x32 := by
  show StableHlo.after hostOps0 (fun b => m (c, b)) (Proc.devRef .tc main_v0) = _
  after_results
  rfl

theorem V_bias1 (c : Dev nD) :
    (V m c main_v1 : S1x256.Idx → EReal) = shapeCast S1x256 (m ((c : Thread nD τ).loc main_arg4)) shapeCasts_S256_S1x256 := by
  show StableHlo.after hostOps0 (fun b => m (c, b)) (Proc.devRef .tc main_v1) = _
  after_results
  rfl

theorem V_bias2 (c : Dev nD) :
    (V m c main_v2 : S1x256.Idx → EReal) = shapeCast S1x256 (m ((c : Thread nD τ).loc main_arg6)) shapeCasts_S256_S1x256 := by
  show StableHlo.after hostOps0 (fun b => m (c, b)) (Proc.devRef .tc main_v2) = _
  after_results
  rfl

theorem V_bias3 (c : Dev nD) :
    (V m c main_v3 : S1x256.Idx → EReal) = shapeCast S1x256 (m ((c : Thread nD τ).loc main_arg8)) shapeCasts_S256_S1x256 := by
  show StableHlo.after hostOps0 (fun b => m (c, b)) (Proc.devRef .tc main_v3) = _
  after_results
  rfl

theorem V_bias4 (c : Dev nD) :
    (V m c main_v4 : S1x1.Idx → EReal) = shapeCast S1x1 (m ((c : Thread nD τ).loc main_arg10)) shapeCasts_S1_S1x1 := by
  show StableHlo.after hostOps0 (fun b => m (c, b)) (Proc.devRef .tc main_v4) = _
  after_results
  rfl

/-! ## The index maps over the grid -/

/-- The attribute window and the output window move one block of rows per grid point; every other window stays put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 250 :=
  lt_of_lt_of_eq t.isLt (show cfg0.N = 250 from N_0)

/-! ## Each window's block, read off the arguments -/

/-- Row p of the attribute block at point t is node 2000 t + p's 32 attributes. -/
theorem blk_rows (c : Dev nD) (t : Fin cfg0.N) (p : Fin 2000) (k : Fin 32) :
    (iblk m c 0 t : Vec Ideal S2000x32 .f32) (ix2 p k)
      = (m ((c : Thread nD τ).loc main_arg2) : S16000000x1.Idx → EReal)
          (ix2 (⟨32 * (2000 * t.val + p.val) + k.val, by have := t_lt t; have := p.isLt; have := k.isLt; omega⟩ : Fin 16000000) (0 : Fin 1)) := by
  obtain ⟨e0, e1, -⟩ := idx_facts t
  unfold iblk
  rw [View.read_apply]
  show V m c main_v0 (((cfg0.win 0).blk t).view.emb (ix2 p k)) = _
  rw [V_rows]
  refine shapeCast_apply (s := S16000000x1) (t := S500000x32) _ _ _ _ ?_
  rw [Shape.rowMajor_val_two, Shape.rowMajor_val_two]
  show (32 * (2000 * t.val + p.val) + k.val) * 1 + 0
    = (win0_0.index t (0 : Fin 2) * 2000 + 1 * p.val) * 32 + (win0_0.index t (1 : Fin 2) * 32 + 1 * k.val)
  rw [e0, e1]
  omega

/-- A weight window's block is the whole matrix, at every point. -/
theorem blk_W1 (c : Dev nD) (t : Fin cfg0.N) :
    (iblk m c 1 t : Vec Ideal S32x256 .f32) = (m ((c : Thread nD τ).loc main_arg3) : S32x256.Idx → EReal) := by
  obtain ⟨-, -, e0, e1, -⟩ := idx_facts t
  funext y
  unfold iblk
  rw [View.read_apply]
  show V m c main_arg3 (((cfg0.win 1).blk t).view.emb y) = _
  rw [V_main_arg3]
  congr 1
  funext a; apply Fin.ext
  match a with
  | ⟨0, _⟩ => show win0_1.index t (0 : Fin 2) * 32 + 1 * (y 0).val = (y 0).val; rw [e0]; omega
  | ⟨1, _⟩ => show win0_1.index t (1 : Fin 2) * 256 + 1 * (y 1).val = (y 1).val; rw [e1]; omega

theorem blk_W2 (c : Dev nD) (t : Fin cfg0.N) :
    (iblk m c 3 t : Vec Ideal S256x256 .f32) = (m ((c : Thread nD τ).loc main_arg5) : S256x256.Idx → EReal) := by
  obtain ⟨-, -, -, -, -, -, e0, e1, -⟩ := idx_facts t
  funext y
  unfold iblk
  rw [View.read_apply]
  show V m c main_arg5 (((cfg0.win 3).blk t).view.emb y) = _
  rw [V_main_arg5]
  congr 1
  funext a; apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

theorem blk_W3 (c : Dev nD) (t : Fin cfg0.N) :
    (iblk m c 5 t : Vec Ideal S256x256 .f32) = (m ((c : Thread nD τ).loc main_arg7) : S256x256.Idx → EReal) := by
  obtain ⟨-, -, -, -, -, -, -, -, -, -, e0, e1, -⟩ := idx_facts t
  funext y
  unfold iblk
  rw [View.read_apply]
  show V m c main_arg7 (((cfg0.win 5).blk t).view.emb y) = _
  rw [V_main_arg7]
  congr 1
  funext a; apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

theorem blk_W4 (c : Dev nD) (t : Fin cfg0.N) :
    (iblk m c 7 t : Vec Ideal S256x1 .f32) = (m ((c : Thread nD τ).loc main_arg9) : S256x1.Idx → EReal) := by
  obtain ⟨-, -, -, -, -, -, -, -, -, -, -, -, -, -, e0, e1, -⟩ := idx_facts t
  funext y
  unfold iblk
  rw [View.read_apply]
  show V m c main_arg9 (((cfg0.win 7).blk t).view.emb y) = _
  rw [V_main_arg9]
  congr 1
  funext a; apply Fin.ext
  match a with
  | ⟨0, _⟩ => show win0_7.index t (0 : Fin 2) * 256 + 1 * (y 0).val = (y 0).val; rw [e0]; omega
  | ⟨1, _⟩ => show win0_7.index t (1 : Fin 2) * 1 + 1 * (y 1).val = (y 1).val; rw [e1]; omega

/-- A bias window's block is the bias as one row: its entry (0, j) is the bias vector's entry j. -/
theorem blk_b1 (c : Dev nD) (t : Fin cfg0.N) (j : Fin 256) :
    (iblk m c 2 t : Vec Ideal S1x256 .f32) (ix2 (0 : Fin 1) j) = (m ((c : Thread nD τ).loc main_arg4) : S256.Idx → EReal) (ix1 j) := by
  obtain ⟨-, -, -, -, e0, e1, -⟩ := idx_facts t
  unfold iblk
  rw [View.read_apply]
  show V m c main_v1 (((cfg0.win 2).blk t).view.emb (ix2 (0 : Fin 1) j)) = _
  rw [V_bias1]
  refine shapeCast_apply (s := S256) (t := S1x256) _ _ _ _ ?_
  rw [Shape.rowMajor_val_one, Shape.rowMajor_val_two]
  show j.val = (win0_2.index t (0 : Fin 2) * 1 + 1 * 0) * 256 + (win0_2.index t (1 : Fin 2) * 256 + 1 * j.val)
  rw [e0, e1]
  omega

theorem blk_b2 (c : Dev nD) (t : Fin cfg0.N) (j : Fin 256) :
    (iblk m c 4 t : Vec Ideal S1x256 .f32) (ix2 (0 : Fin 1) j) = (m ((c : Thread nD τ).loc main_arg6) : S256.Idx → EReal) (ix1 j) := by
  obtain ⟨-, -, -, -, -, -, -, -, e0, e1, -⟩ := idx_facts t
  unfold iblk
  rw [View.read_apply]
  show V m c main_v2 (((cfg0.win 4).blk t).view.emb (ix2 (0 : Fin 1) j)) = _
  rw [V_bias2]
  refine shapeCast_apply (s := S256) (t := S1x256) _ _ _ _ ?_
  rw [Shape.rowMajor_val_one, Shape.rowMajor_val_two]
  show j.val = (win0_4.index t (0 : Fin 2) * 1 + 1 * 0) * 256 + (win0_4.index t (1 : Fin 2) * 256 + 1 * j.val)
  rw [e0, e1]
  omega

theorem blk_b3 (c : Dev nD) (t : Fin cfg0.N) (j : Fin 256) :
    (iblk m c 6 t : Vec Ideal S1x256 .f32) (ix2 (0 : Fin 1) j) = (m ((c : Thread nD τ).loc main_arg8) : S256.Idx → EReal) (ix1 j) := by
  obtain ⟨-, -, -, -, -, -, -, -, -, -, -, -, e0, e1, -⟩ := idx_facts t
  unfold iblk
  rw [View.read_apply]
  show V m c main_v3 (((cfg0.win 6).blk t).view.emb (ix2 (0 : Fin 1) j)) = _
  rw [V_bias3]
  refine shapeCast_apply (s := S256) (t := S1x256) _ _ _ _ ?_
  rw [Shape.rowMajor_val_one, Shape.rowMajor_val_two]
  show j.val = (win0_6.index t (0 : Fin 2) * 1 + 1 * 0) * 256 + (win0_6.index t (1 : Fin 2) * 256 + 1 * j.val)
  rw [e0, e1]
  omega

theorem blk_b4 (c : Dev nD) (t : Fin cfg0.N) (j : Fin 1) :
    (iblk m c 8 t : Vec Ideal S1x1 .f32) (ix2 (0 : Fin 1) j) = (m ((c : Thread nD τ).loc main_arg10) : S1.Idx → EReal) (ix1 j) := by
  obtain ⟨-, -, -, -, -, -, -, -, -, -, -, -, -, -, -, -, e0, e1, -⟩ := idx_facts t
  unfold iblk
  rw [View.read_apply]
  show V m c main_v4 (((cfg0.win 8).blk t).view.emb (ix2 (0 : Fin 1) j)) = _
  rw [V_bias4]
  refine shapeCast_apply (s := S1) (t := S1x1) _ _ _ _ ?_
  rw [Shape.rowMajor_val_one, Shape.rowMajor_val_two]
  show j.val = (win0_8.index t (0 : Fin 2) * 1 + 1 * 0) * 1 + (win0_8.index t (1 : Fin 2) * 1 + 1 * j.val)
  rw [e0, e1]
  omega

/-! ## The output column -/

/-- What the one-column output ends holding: at row n, the network on node n's attributes. -/
def column (c : Dev nD) : S500000x1.Idx → EReal := fun i =>
  Mlp.node (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)

theorem hz : (![0, 0] : Fin 2 → Nat) = fun _ => 0 := funext fun a => by fin_cases a <;> rfl

/-- WHAT POINT t WRITES BACK is block t of `column`. -/
theorem flushed_eq (c : Dev nD) (t : Fin cfg0.N) :
    (dats m 0 c).flushed 9 t = ((cfg0.win 9).blk t).view.read (Elt Ideal) (column m c) := by
  obtain ⟨-, -, -, -, -, -, -, -, -, -, -, -, -, -, -, -, -, -, e0, e1⟩ := idx_facts t
  show (cfg0.win 9).cut (grid0.coords t) ((dats m 0 c).after 9 t) = _
  rw [after0_9]
  unfold out0_9
  rw [View.canon_unit_zero hz]
  simp only [View.ld_unit_zero (S := S2000x32) hz, View.ld_unit_zero (S := S32x256) hz, View.ld_unit_zero (S := S1x256) hz,
    View.ld_unit_zero (S := S256x256) hz, View.ld_unit_zero (S := S256x1) hz, View.ld_unit_zero (S := S1x1) hz]
  funext y
  obtain ⟨p, q, rfl⟩ : ∃ (p : Fin 2000) (q : Fin 1), y = ix2 p q := ⟨y 0, y 1, eq_ix2 y⟩
  rw [View.read_apply]
  refine (Payload.pay_apply (iblk m c 0 t) (iblk m c 1 t) (iblk m c 2 t) (iblk m c 3 t) (iblk m c 4 t) (iblk m c 5 t)
    (iblk m c 6 t) (iblk m c 7 t) (iblk m c 8 t) p q).trans ?_
  rw [blk_W1, blk_W2, blk_W3, blk_W4]
  simp only [blk_rows, blk_b1, blk_b2, blk_b3, blk_b4]
  have hemb : ((cfg0.win 9).blk t).view.emb (ix2 p q)
      = (ix2 (⟨2000 * t.val + p.val, by have := t_lt t; have := p.isLt; omega⟩ : Fin 500000) (0 : Fin 1) : S500000x1.Idx) := by
    funext a; apply Fin.ext
    match a with
    | ⟨0, _⟩ => show win0_9.index t (0 : Fin 2) * 2000 + 1 * p.val = 2000 * t.val + p.val; rw [e0]; omega
    | ⟨1, _⟩ => show win0_9.index t (1 : Fin 2) * 1 + 1 * q.val = 0; rw [e1]; have := q.isLt; omega
  rw [hemb]
  rfl

/-- The 250 blocks tile the column: row n is in point n / 2000's block. -/
theorem cover (i : S500000x1.Idx) : ∃ t : Fin cfg0.N, (cfg0.win 9).flush t = true ∧ i ∈ ((cfg0.win 9).blk t).view.set := by
  have h0 : (i 0).val < 500000 := idx2_lt0 i
  have h1 : (i 1).val < 1 := idx2_lt1 i
  let t : Fin cfg0.N := ⟨(i 0).val / 2000, by rw [show cfg0.N = 250 from N_0]; omega⟩
  obtain ⟨-, -, -, -, -, -, -, -, -, -, -, -, -, -, -, -, -, -, e0, e1⟩ := idx_facts t
  have ht : t.val = (i 0).val / 2000 := rfl
  refine ⟨t, flush0_9 t, ?_⟩
  show i ∈ ((View.whole main_v5).slice (win0_9.rect t)).set
  rw [View.set_slice_whole, Rect.mem_set_unit]
  intro a
  match a with
  | ⟨0, _⟩ =>
    show win0_9.index t (0 : Fin 2) * 2000 ≤ (i 0).val ∧ (i 0).val < win0_9.index t (0 : Fin 2) * 2000 + 2000
    rw [e0, ht]; omega
  | ⟨1, _⟩ =>
    show win0_9.index t (1 : Fin 2) * 1 ≤ (i 1).val ∧ (i 1).val < win0_9.index t (1 : Fin 2) * 1 + 1
    rw [e1]; omega

/-- So the output column ends holding `column`. -/
theorem final (c : Dev nD) : (dats m 0 c).arrAt 9 cfg0.N = column m c :=
  (dats m 0 c).arrAt_eq_of_cover 9 (column m c) (fun t _ => flushed_eq m c t) (cover)

/-! ## The host's last reshape, and the run -/

/-- The result vector: entry n is the network on node n's attributes. -/
def result (c : Dev nD) : S500000.Idx → EReal := fun i =>
  Mlp.node (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0)

/-- After the region the host reads the column as a vector. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v5)
      = column m c from (Pipeline.withArrays_arr spec0 launch0.win.arr_inj c _ _ 9).trans (final m c)]
  funext i
  obtain ⟨n, rfl⟩ : ∃ n : Fin 500000, i = ix1 n := ⟨i 0, eq_ix1 i⟩
  refine (shapeCast_apply (s := S500000x1) (t := S500000) _ _ (ix1 n) (ix2 n (0 : Fin 1)) ?_).trans rfl
  rw [Shape.rowMajor_val_two, Shape.rowMajor_val_one]
  show n.val * 1 + 0 = n.val
  omega

/-- The run, read: every weakly fair execution ends with the result vector at `result` and the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c))),
      ((h c).2 main_arg10 (Pipeline.mem_restRefs_of main_arg10 (by decide) (by decide))).trans (W_main_arg10 m (dats m) c)⟩)
    (run_main m ρ)

end Cert.KernelIdeal.KValue

end
-- ==== Proof.RefRun.lean ====
/-
  The reference program's run, read back.

  The reference is a straight line of host operations: the edge attributes viewed as 500000 rows of 32, three dense
  layers with tanh, a fourth dense layer to one logit per row, jax's log-sigmoid (written out: -softplus(-x), softplus
  the numerically careful log(1 + exp) with its NaN guard), and a final reshape to a vector.  Its two outlined functions
  are listed inline at their call site, over the call's own buffers.  Every weakly fair execution ends with the result
  buffer at `refOut` of the arguments — the operations' composition, named stage by stage — and the arguments unchanged.
-/
import proofs.«149214_j89137751261683_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages of the result, as functions of the arguments -/

/-- The flat edge attributes as one row of 32 per node. -/
def rows (e : FVec F S16000000x1 .f32) : FVec F S500000x32 .f32 :=
  shapeCast S500000x32 e shapeCasts_S16000000x1_S500000x32

/-- A bias vector laid along every row. -/
def biasRows (b : FVec F S256 .f32) : FVec F S500000x256 .f32 :=
  broadcastInDim S500000x256 ![0, 1] bcast_S1x256_S500000x256_0_1 (broadcastInDim S1x256 ![1] bcast_S256_S1x256_1 b)

/-- The first hidden layer: tanh (rows · W1 + b1). -/
def layer1 (g : FVec F S500000x32 .f32) (W : FVec F S32x256 .f32) (b : FVec F S256 .f32) : FVec F S500000x256 .f32 :=
  Host.tanh (addf (Host.dotGeneral dot_S500000x32_S32x256_S500000x256_1_0_0_1_n_n none g W) (biasRows b))

/-- A further hidden layer: tanh (h · W + b). -/
def layerH (h : FVec F S500000x256 .f32) (W : FVec F S256x256 .f32) (b : FVec F S256 .f32) : FVec F S500000x256 .f32 :=
  Host.tanh (addf (Host.dotGeneral dot_S500000x256_S256x256_S500000x256_1_0_0_1_n_n none h W) (biasRows b))

/-- The output layer: one logit per row, h · W4 + b4. -/
def logits (h : FVec F S500000x256 .f32) (W : FVec F S256x1 .f32) (b : FVec F S1 .f32) : FVec F S500000x1 .f32 :=
  addf (Host.dotGeneral dot_S500000x256_S256x1_S500000x1_1_0_0_1_n_n none h W)
    (broadcastInDim S500000x1 ![0, 1] bcast_S1x1_S500000x1_0_1 (broadcastInDim S1x1 ![1] bcast_S1_S1x1_1 b))

/-- The zero column the softplus compares and subtracts with. -/
def zeros : FVec F S500000x1 .f32 :=
  broadcastInDim S500000x1 ![] bcast_S_S500000x1 (constant S_ .f32 0x00000000#32)

/-- jax's softplus, logaddexp(z, 0) written out: where z - 0 is a NaN the sum z + 0, else max(z, 0) + log1p(exp(-|z - 0|)). -/
def softplus (z : FVec F S500000x1 .f32) : FVec F S500000x1 .f32 :=
  select (cmpf .une (subf z zeros) (subf z zeros)) (addf z zeros)
    (addf (maximumf z zeros) (Host.log1p (Host.exp (Host.negf (Host.absf (subf z zeros))))))

/-- log-sigmoid: -softplus(-x). -/
def logSigmoid (x : FVec F S500000x1 .f32) : FVec F S500000x1 .f32 := Host.negf (softplus (Host.negf x))

/-- The reference's result as a function of the arguments it reads. -/
def refOut (e : FVec F S16000000x1 .f32) (W1 : FVec F S32x256 .f32) (b1 : FVec F S256 .f32) (W2 : FVec F S256x256 .f32)
    (b2 : FVec F S256 .f32) (W3 : FVec F S256x256 .f32) (b3 : FVec F S256 .f32) (W4 : FVec F S256x1 .f32) (b4 : FVec F S1 .f32) :
    FVec F S500000 .f32 :=
  shapeCast S500000 (logSigmoid (logits (layerH (layerH (layer1 (rows e) W1 b1) W2 b2) W3 b3) W4 b4)) shapeCasts_S500000x1_S500000

/-! ## @main as a list of operations -/

/-- @main's operations in order, the two outlined functions' bodies inline at the call. -/
abbrev ops : List (HloOp τ sig (Elt F)) :=
  [ reshape main_arg2 main_v0 rfl shapeCasts_S16000000x1_S500000x32,
    binary main_v0 main_arg3 main_v1 ((fun l r => Host.dotGeneral dot_S500000x32_S32x256_S500000x256_1_0_0_1_n_n none l r) : (⟨S500000x32, .f32⟩ : BufTy).Contents (Elt F) → (⟨S32x256, .f32⟩ : BufTy).Contents (Elt F) → (⟨S500000x256, .f32⟩ : BufTy).Contents (Elt F)),
    unary main_arg4 main_v2 (broadcastInDim S1x256 ![1] bcast_S256_S1x256_1 : (⟨S256, .f32⟩ : BufTy).Contents (Elt F) → (⟨S1x256, .f32⟩ : BufTy).Contents (Elt F)),
    unary main_v2 main_v3 (broadcastInDim S500000x256 ![0, 1] bcast_S1x256_S500000x256_0_1 : (⟨S1x256, .f32⟩ : BufTy).Contents (Elt F) → (⟨S500000x256, .f32⟩ : BufTy).Contents (Elt F)),
    binary main_v1 main_v3 main_v4 (addf : (⟨S500000x256, .f32⟩ : BufTy).Contents (Elt F) → (⟨S500000x256, .f32⟩ : BufTy).Contents (Elt F) → (⟨S500000x256, .f32⟩ : BufTy).Contents (Elt F)),
    unary main_v4 main_v5 (Host.tanh : (⟨S500000x256, .f32⟩ : BufTy).Contents (Elt F) → (⟨S500000x256, .f32⟩ : BufTy).Contents (Elt F)),
    binary main_v5 main_arg5 main_v6 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg6 main_v7 (broadcastInDim S1x256 ![1] bcast_S256_S1x256_1 : (⟨S256, .f32⟩ : BufTy).Contents (Elt F) → (⟨S1x256, .f32⟩ : BufTy).Contents (Elt F)),
    unary main_v7 main_v8 (broadcastInDim S500000x256 ![0, 1] bcast_S1x256_S500000x256_0_1 : (⟨S1x256, .f32⟩ : BufTy).Contents (Elt F) → (⟨S500000x256, .f32⟩ : BufTy).Contents (Elt F)),
    binary main_v6 main_v8 main_v9 (addf : (⟨S500000x256, .f32⟩ : BufTy).Contents (Elt F) → (⟨S500000x256, .f32⟩ : BufTy).Contents (Elt F) → (⟨S500000x256, .f32⟩ : BufTy).Contents (Elt F)),
    unary main_v9 main_v10 (Host.tanh : (⟨S500000x256, .f32⟩ : BufTy).Contents (Elt F) → (⟨S500000x256, .f32⟩ : BufTy).Contents (Elt F)),
    binary main_v10 main_arg7 main_v11 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    unary main_arg8 main_v12 (broadcastInDim S1x256 ![1] bcast_S256_S1x256_1 : (⟨S256, .f32⟩ : BufTy).Contents (Elt F) → (⟨S1x256, .f32⟩ : BufTy).Contents (Elt F)),
    unary main_v12 main_v13 (broadcastInDim S500000x256 ![0, 1] bcast_S1x256_S500000x256_0_1 : (⟨S1x256, .f32⟩ : BufTy).Contents (Elt F) → (⟨S500000x256, .f32⟩ : BufTy).Contents (Elt F)),
    binary main_v11 main_v13 main_v14 (addf : (⟨S500000x256, .f32⟩ : BufTy).Contents (Elt F) → (⟨S500000x256, .f32⟩ : BufTy).Contents (Elt F) → (⟨S500000x256, .f32⟩ : BufTy).Contents (Elt F)),
    unary main_v14 main_v15 (Host.tanh : (⟨S500000x256, .f32⟩ : BufTy).Contents (Elt F) → (⟨S500000x256, .f32⟩ : BufTy).Contents (Elt F)),
    binary main_v15 main_arg9 main_v16 ((fun l r => Host.dotGeneral dot_S500000x256_S256x1_S500000x1_1_0_0_1_n_n none l r) : (⟨S500000x256, .f32⟩ : BufTy).Contents (Elt F) → (⟨S256x1, .f32⟩ : BufTy).Contents (Elt F) → (⟨S500000x1, .f32⟩ : BufTy).Contents (Elt F)),
    unary main_arg10 main_v17 (broadcastInDim S1x1 ![1] bcast_S1_S1x1_1 : (⟨S1, .f32⟩ : BufTy).Contents (Elt F) → (⟨S1x1, .f32⟩ : BufTy).Contents (Elt F)),
    unary main_v17 main_v18 (broadcastInDim S500000x1 ![0, 1] bcast_S1x1_S500000x1_0_1 : (⟨S1x1, .f32⟩ : BufTy).Contents (Elt F) → (⟨S500000x1, .f32⟩ : BufTy).Contents (Elt F)),
    binary main_v16 main_v18 main_v19 (addf : (⟨S500000x1, .f32⟩ : BufTy).Contents (Elt F) → (⟨S500000x1, .f32⟩ : BufTy).Contents (Elt F) → (⟨S500000x1, .f32⟩ : BufTy).Contents (Elt F)),
    TRef.unary (.of main_v19) main_call0.v0 Host.negf,
    TRef.nullary main_call0.call0.cst (constant S_ .f32 0x00000000#32),
    TRef.unary main_call0.call0.cst main_call0.call0.v0 (broadcastInDim S500000x1 ![] bcast_S_S500000x1),
    TRef.binary main_call0.v0 main_call0.call0.v0 main_call0.call0.v1 maximumf,
    TRef.unary main_call0.call0.cst main_call0.call0.v2 (broadcastInDim S500000x1 ![] bcast_S_S500000x1),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S500000x1 ![] bcast_S_S500000x1),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    reshape main_v20 main_v21 rfl shapeCasts_S500000x1_S500000 ]

/-- @main IS that straight line: the two functions' bodies unfolded at their calls, sequencing reassociated. -/
theorem main_eq (c : Dev nD) : main (F := F) c = seq ops := by
  simp only [main, fn_log_sigmoid.body, fn_softplus.body, seq, bind_assoc, pure_bind]

/-- The result buffer after the operations, over any starting contents: the stages' composition. -/
theorem out_eq (V : Valuation τ sig (Elt F)) :
    after ops V (main_v21 : DevRef τ sig)
      = refOut (V (main_arg2 : DevRef τ sig)) (V (main_arg3 : DevRef τ sig)) (V (main_arg4 : DevRef τ sig))
          (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp only [after_cons, after_nil]
  rfl

/-! ## The arguments are not written -/

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl
theorem arg6_eq (V : Valuation τ sig (Elt F)) : after ops V (main_arg6 : DevRef τ sig) = V (main_arg6 : DevRef τ sig) := by
  simp only [after_cons, after_nil]
  rfl
theorem arg7_eq (V : Valuation τ sig (Elt F)) : after ops V (main_arg7 : DevRef τ sig) = V (main_arg7 : DevRef τ sig) := by
  simp only [after_cons, after_nil]
  rfl
theorem arg8_eq (V : Valuation τ sig (Elt F)) : after ops V (main_arg8 : DevRef τ sig) = V (main_arg8 : DevRef τ sig) := by
  simp only [after_cons, after_nil]
  rfl
theorem arg9_eq (V : Valuation τ sig (Elt F)) : after ops V (main_arg9 : DevRef τ sig) = V (main_arg9 : DevRef τ sig) := by
  simp only [after_cons, after_nil]
  rfl
theorem arg10_eq (V : Valuation τ sig (Elt F)) : after ops V (main_arg10 : DevRef τ sig) = V (main_arg10 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., reshape_bufs_sub ..⟩

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refOut (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v21).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefRun

end
-- ==== Proof.RefValue.lean ====
/-
  The reference's result, read at one node.

  Each stage of the reference's result term is read at an entry on the extended reals: the reshape of the flat edge
  attributes puts attribute 32 n + k at (n, k); a bias broadcast along the rows reads its entry j everywhere in column j;
  a host matrix product at (n, j) is the sum over k of row n times column j; tanh, the negations, the maximum, exp and
  log1p act entry by entry.  Composed, entry n of the result is the network `Mlp.out` applied to node n's 32 attributes.
-/
import proofs.«149214_j89137751261683_1_alg».proof.Proof.RefRun
import proofs.«149214_j89137751261683_1_alg».proof.Proof.LibPlainDot
import proofs.«149214_j89137751261683_1_alg».proof.Proof.Mlp
import Idealize.ShloMosaic.Lib.Pipeline.Value

noncomputable section

open scoped BigOperators

namespace Cert.ReferenceIdeal.RefValue

open Cert.ReferenceIdeal Cert.ReferenceIdeal.Gen Cert.ReferenceIdeal.RefRun Idealize.ShloMosaic Idealize.ShloMosaic.ValueIdx

theorem plain1 : PlainDot.IsPlain dot_S500000x32_S32x256_S500000x256_1_0_0_1_n_n := ⟨rfl, rfl, rfl, rfl, rfl, rfl⟩
theorem plainH : PlainDot.IsPlain dot_S500000x256_S256x256_S500000x256_1_0_0_1_n_n := ⟨rfl, rfl, rfl, rfl, rfl, rfl⟩
theorem plainOut : PlainDot.IsPlain dot_S500000x256_S256x1_S500000x1_1_0_0_1_n_n := ⟨rfl, rfl, rfl, rfl, rfl, rfl⟩

/-- Node n's k-th attribute is entry 32 n + k of the flat column. -/
theorem rows_apply (e : FVec Ideal S16000000x1 .f32) (n : Fin 500000) (k : Fin 32) :
    rows e (ix2 n k) = e (ix2 (⟨32 * n.val + k.val, by have := n.isLt; have := k.isLt; omega⟩ : Fin 16000000) (0 : Fin 1)) := by
  unfold rows
  refine shapeCast_apply e _ (ix2 n k) _ ?_
  rw [Shape.rowMajor_val_two, Shape.rowMajor_val_two]
  show (32 * n.val + k.val) * 1 + 0 = n.val * 32 + k.val
  omega

/-- A bias laid along every row reads its entry j in column j. -/
theorem biasRows_apply (b : FVec Ideal S256 .f32) (n : Fin 500000) (j : Fin 256) : biasRows b (ix2 n j) = b (ix1 j) := by
  unfold biasRows
  rw [broadcastInDim_apply _ _ _ (ix2 n j) (ix2 (0 : Fin 1) j) (fun a => by
    match a with
    | ⟨0, _⟩ => rfl
    | ⟨1, _⟩ => rfl)]
  exact broadcastInDim_apply _ _ _ (ix2 (0 : Fin 1) j) (ix1 j) (fun a => by
    match a with
    | ⟨0, _⟩ => rfl)

theorem layer1_apply (g : FVec Ideal S500000x32 .f32) (W : FVec Ideal S32x256 .f32) (b : FVec Ideal S256 .f32) (n : Fin 500000) (j : Fin 256) :
    layer1 g W b (ix2 n j) = Mlp.hidden W (fun j => b (ix1 j)) (fun k => g (ix2 n k)) j := by
  show Ideal.tanh (FloatOps.dotGeneral dot_S500000x32_S32x256_S500000x256_1_0_0_1_n_n none .single g W (ix2 n j) + biasRows b (ix2 n j)) = _
  rw [PlainDot.dotGeneral_apply plain1, biasRows_apply]
  rfl

theorem layerH_apply (h : FVec Ideal S500000x256 .f32) (W : FVec Ideal S256x256 .f32) (b : FVec Ideal S256 .f32) (n : Fin 500000) (j : Fin 256) :
    layerH h W b (ix2 n j) = Mlp.hidden W (fun j => b (ix1 j)) (fun k => h (ix2 n k)) j := by
  show Ideal.tanh (FloatOps.dotGeneral dot_S500000x256_S256x256_S500000x256_1_0_0_1_n_n none .single h W (ix2 n j) + biasRows b (ix2 n j)) = _
  rw [PlainDot.dotGeneral_apply plainH, biasRows_apply]
  rfl

/-- The output bias, one number, read anywhere in the logits' column. -/
theorem outBias_apply (b : FVec Ideal S1 .f32) (n : Fin 500000) (j : Fin 1) :
    broadcastInDim S500000x1 ![0, 1] bcast_S1x1_S500000x1_0_1 (broadcastInDim S1x1 ![1] bcast_S1_S1x1_1 b) (ix2 n j) = b (ix1 j) := by
  rw [broadcastInDim_apply _ _ _ (ix2 n j) (ix2 (0 : Fin 1) (0 : Fin 1)) (fun a => by
    match a with
    | ⟨0, _⟩ => rfl
    | ⟨1, _⟩ => rfl)]
  obtain rfl : j = 0 := Subsingleton.elim _ _
  exact broadcastInDim_apply _ _ _ (ix2 (0 : Fin 1) (0 : Fin 1)) (ix1 (0 : Fin 1)) (fun a => by
    match a with
    | ⟨0, _⟩ => rfl)

theorem logits_apply (h : FVec Ideal S500000x256 .f32) (W : FVec Ideal S256x1 .f32) (b : FVec Ideal S1 .f32) (n : Fin 500000) (j : Fin 1) :
    logits h W b (ix2 n j) = Mlp.pre W (fun j => b (ix1 j)) (fun k => h (ix2 n k)) j := by
  show FloatOps.dotGeneral dot_S500000x256_S256x1_S500000x1_1_0_0_1_n_n none .single h W (ix2 n j)
    + broadcastInDim S500000x1 ![0, 1] bcast_S1x1_S500000x1_0_1 (broadcastInDim S1x1 ![1] bcast_S1_S1x1_1 b) (ix2 n j) = _
  rw [PlainDot.dotGeneral_apply plainOut, outBias_apply]
  rfl

/-- The host's log-sigmoid at an entry. -/
theorem logSigmoid_apply (x : FVec Ideal S500000x1 .f32) (i : S500000x1.Idx) : logSigmoid x i = Mlp.logSigmoid (x i) := by
  show -(Scalar.select (Ideal.cmp .une (-(x i) - Ideal.ofBits .f32 0x00000000#32) (-(x i) - Ideal.ofBits .f32 0x00000000#32))
      (-(x i) + Ideal.ofBits .f32 0x00000000#32)
      (max (-(x i)) (Ideal.ofBits .f32 0x00000000#32)
        + Ideal.log1p (Ideal.exp (-(max (-(x i) - Ideal.ofBits .f32 0x00000000#32) (-(-(x i) - Ideal.ofBits .f32 0x00000000#32))))))) = _
  rw [Ideal.ofBits_zero_f32]
  exact Mlp.host_tail (x i)

/-- Entry n of the reference's result: the network on node n's 32 attributes. -/
theorem refOut_apply (e : FVec Ideal S16000000x1 .f32) (W1 : FVec Ideal S32x256 .f32) (b1 : FVec Ideal S256 .f32) (W2 : FVec Ideal S256x256 .f32)
    (b2 : FVec Ideal S256 .f32) (W3 : FVec Ideal S256x256 .f32) (b3 : FVec Ideal S256 .f32) (W4 : FVec Ideal S256x1 .f32) (b4 : FVec Ideal S1 .f32)
    (n : Fin 500000) :
    refOut e W1 b1 W2 b2 W3 b3 W4 b4 (ix1 n) = Mlp.node e W1 b1 W2 b2 W3 b3 W4 b4 n := by
  unfold refOut
  rw [shapeCast_apply _ _ (ix1 n) (ix2 n (0 : Fin 1)) (by
    rw [Shape.rowMajor_val_two, Shape.rowMajor_val_one]
    show n.val * 1 + 0 = n.val
    omega)]
  rw [logSigmoid_apply, logits_apply]
  simp only [layerH_apply, layer1_apply, rows_apply]
  rfl

/-- The reference's result, whole: entry by entry the per-node function of the arguments. -/
theorem refOut_eq (e : FVec Ideal S16000000x1 .f32) (W1 : FVec Ideal S32x256 .f32) (b1 : FVec Ideal S256 .f32) (W2 : FVec Ideal S256x256 .f32)
    (b2 : FVec Ideal S256 .f32) (W3 : FVec Ideal S256x256 .f32) (b3 : FVec Ideal S256 .f32) (W4 : FVec Ideal S256x1 .f32) (b4 : FVec Ideal S1 .f32) :
    refOut e W1 b1 W2 b2 W3 b3 W4 b4 = fun i : S500000.Idx => Mlp.node e W1 b1 W2 b2 W3 b3 W4 b4 (i 0) := by
  funext i
  obtain ⟨n, rfl⟩ : ∃ n : Fin 500000, i = ix1 n := ⟨i 0, eq_ix1 i⟩
  exact refOut_apply e W1 b1 W2 b2 W3 b3 W4 b4 n

end Cert.ReferenceIdeal.RefValue

end
-- ==== Proof.lean ====
/- The proof of `Cert.Claim`: a per-node MLP over the edge attributes, kernel against reference, equal over the reals.

   Both programs view the 16,000,000 edge attributes as 500,000 rows of 32 (node n's attributes are entries 32 n … 32 n + 31),
   push each row through three dense layers with tanh and a fourth to one logit, and apply jax's log-sigmoid.  The kernel does
   it 2000 rows at a time with its matrix operands narrowed to bf16, the reference on the whole array at once in f32.  On the
   extended reals narrowing is the identity and a matrix product is the exact sum of products whatever the tiling, so row by
   row both compute the same function, `Mlp.node` (Proof/Mlp.lean); no algebraic law beyond that is used, and finiteness of
   the inputs is never needed.  The kernel spells a negation as a difference from zero and its NaN test with the ordered
   "not equal", the host with the unordered one: on the extended reals both tests are false on a value against itself.

   Proof/LibPlainDot.lean   a plain M×K by K×N product read at an entry (any record with those dimension numbers)
   Proof/Mlp.lean           the network on one row; the two spellings of the log-sigmoid
   Proof/KernelPayload.lean the kernel body's value at a row of its block
   Proof/KernelValue.lean   the blocks of each window, the output column tiled by the 250 blocks, the last reshape, the run
   Proof/RefRun.lean        the reference as a list of host operations (its two outlined functions inline) and its run
   Proof/RefValue.lean      the reference's result read at a node
   The frames of the two kernel programs are the generated ones; the reference's is its run with the result dropped;
   the idealization rewrote nothing, so there is nothing to preserve. -/
import proofs.«149214_j89137751261683_1_alg».proof.Defs
import proofs.«149214_j89137751261683_1_alg».proof.Proof.Gen.Kernel
import proofs.«149214_j89137751261683_1_alg».proof.Proof.Gen.Kernel.Skeleton
import proofs.«149214_j89137751261683_1_alg».proof.Proof.Gen.Kernel.Launch
import proofs.«149214_j89137751261683_1_alg».proof.Proof.Gen.Kernel.Points
import proofs.«149214_j89137751261683_1_alg».proof.Proof.Gen.Kernel.Frame
import proofs.«149214_j89137751261683_1_alg».proof.Proof.Gen.KernelIdeal
import proofs.«149214_j89137751261683_1_alg».proof.Proof.Gen.KernelIdeal.Skeleton
import proofs.«149214_j89137751261683_1_alg».proof.Proof.Gen.KernelIdeal.Launch
import proofs.«149214_j89137751261683_1_alg».proof.Proof.Gen.KernelIdeal.Points
import proofs.«149214_j89137751261683_1_alg».proof.Proof.Gen.KernelIdeal.Frame
import proofs.«149214_j89137751261683_1_alg».proof.Proof.Gen.ReferenceIdeal
import proofs.«149214_j89137751261683_1_alg».proof.Proof.Gen.Pre_finite_inputs
import proofs.«149214_j89137751261683_1_alg».proof.Proof.KernelValue
import proofs.«149214_j89137751261683_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with entry n of the result at the network on node n's
    attributes: the kernel's run read block by block, the reference's read stage by stage. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq]
  obtain ⟨h0, h1, h2, h3, h4, h5, h6, h7, h8, h9, h10⟩ := hagree c
  rw [h2, h3, h4, h5, h6, h7, h8, h9, h10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
